-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1024x1024 : Shape := ⟨2, ![1024, 1024]⟩
abbrev S1024x1 : Shape := ⟨2, ![1024, 1]⟩
abbrev S1024 : Shape := ⟨1, ![1024]⟩

abbrev nBuf : Space → Nat
  | .hbm => 26
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .bf16⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S8192x1, .f32⟩
  | .hbm, ⟨25, _⟩ => ⟨S8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  natLt_1_32 : 1 < 32
  shapeCasts_S8192x1_S8192 : S8192x1.ShapeCasts S8192
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v5) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .i1⟩
  | .hbm, ⟨26, _⟩ => ⟨S_, .i1⟩
  | .hbm, ⟨27, _⟩ => ⟨S8192, .i1⟩
  | .hbm, ⟨28, _⟩ => ⟨S8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  bcast_S_S8192x8192 : S_.BroadcastsInDim S8192x8192 (![] : Fin 0 → Fin S8192x8192.rank)
  reducesTo_S8192x8192_S8192_d1 : S8192x8192.ReducesTo [1] S8192
  dot_S8192x1024_S8192x1024_S8192x8192_1_1_0_0_n_n_wf : DotDims.WF S8192x1024 S8192x1024 S8192x8192 [1] [1] [0] [0] [] []

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf

class Facts : Prop extends Facts₀ where

variable [Facts]
-- ==== Proof.Threshold.lean ====
/-
  Whether some row of one matrix is more similar than a threshold to a given row of another, told two ways.

  For a finite family `s` of extended reals and a threshold `c`: `c` lies strictly below the maximum of the family
  (the fold of `max` started at `⊥`, the lattice's bottom, which is the identity of `max`) exactly when it lies strictly
  below some member — the extended reals are a linear order, so `c < max a b ↔ c < a ∨ c < b`, and nothing lies below `⊥`.
  Likewise the fold of bitwise `or` over one-bit words started at `0` is `1` exactly when some member is `1`.
  So "the row's maximal similarity exceeds the threshold" and "some similarity of the row exceeds the threshold" are
  one proposition; `anyAbove` is the indicator of it, the function both programs are shown to compute.
  Neither law asks anything of the family's members: infinities are as good as reals.
-/
import Idealize.ShloMosaic.PureOps.Ideal
import Idealize.ShloMosaic.PureOps.Ideal.Laws
import Idealize.ShloMosaic.PureOps.Reduce
import Idealize.ShloMosaic.Lib.Affine
import Idealize.ShloMosaic.Lib.ValueIdx
import Mathlib.Data.Finset.Fold

noncomputable section

open scoped BigOperators

namespace Cert.Threshold

open Idealize.ShloMosaic Idealize.ShloMosaic.ValueIdx

/-- `c` lies below the maximum of a finite family, the fold started at `⊥`, exactly when it lies below some member. -/
theorem lt_fold_max_bot {n : ℕ} (f : Fin n → EReal) (c : EReal) :
    c < (Finset.univ : Finset (Fin n)).fold max ⊥ f ↔ ∃ k, c < f k := by
  rw [Finset.lt_fold_max]
  constructor
  · rintro (h | ⟨k, _, hk⟩)
    · exact absurd h (not_lt_bot)
    · exact ⟨k, hk⟩
  · rintro ⟨k, hk⟩
    exact Or.inr ⟨k, Finset.mem_univ k, hk⟩

/-- The bitwise `or` of a finite family of one-bit words over a set, started at `0`, is `1` exactly when some member
    of the set is `1`. -/
theorem fold_ori_eq_one_on {n : ℕ} (b : Fin n → BitVec 1) (s : Finset (Fin n)) :
    s.fold IntOp.ori 0#1 b = 1#1 ↔ ∃ k ∈ s, b k = 1#1 := by
  induction s using Finset.induction_on with
  | empty => simp
  | insert a s ha ih =>
    rw [Finset.fold_insert ha, IntOp.ori_eq_one, ih]
    constructor
    · rintro (h | ⟨k, hk, hb⟩)
      · exact ⟨a, Finset.mem_insert_self a s, h⟩
      · exact ⟨k, Finset.mem_insert_of_mem hk, hb⟩
    · rintro ⟨k, hk, hb⟩
      rcases Finset.mem_insert.1 hk with rfl | hk
      · exact Or.inl hb
      · exact Or.inr ⟨k, hk, hb⟩

/-- Over the whole index set. -/
theorem fold_ori_eq_one {n : ℕ} (b : Fin n → BitVec 1) :
    (Finset.univ : Finset (Fin n)).fold IntOp.ori 0#1 b = 1#1 ↔ ∃ k, b k = 1#1 := by
  rw [fold_ori_eq_one_on]
  exact ⟨fun ⟨k, _, h⟩ => ⟨k, h⟩, fun ⟨k, h⟩ => ⟨k, Finset.mem_univ k, h⟩⟩

/-- A one-bit word that is not `1` is `0`. -/
theorem bit_eq_zero_of_ne_one (b : BitVec 1) (h : b ≠ 1#1) : b = 0#1 := by
  revert h; revert b; decide

/-- A one-bit word widened to 32 bits and read as a signed integer is the word read as a natural number: `0` or `1`
    either way, so the two conversions to a float give one value. -/
theorem signed_widened_eq_unsigned (b : BitVec 1) :
    (((b.setWidth 32).toInt : ℝ) : EReal) = ((b.toNat : ℝ) : EReal) := by
  have h : (b.setWidth 32).toInt = (b.toNat : ℤ) := by revert b; decide
  rw [h, Int.cast_natCast]

abbrev S8192x1024 : Shape := ⟨2, ![8192, 1024]⟩
abbrev S8192 : Shape := ⟨1, ![8192]⟩

/-- The similarity of row `n` of `x` and row `m` of `y`: the sum over the 1024 columns of the products. -/
def sim (x y : S8192x1024.Idx → EReal) (n m : Fin 8192) : EReal :=
  ∑ k : Fin 1024, x (ix2 n k) * y (ix2 m k)

open Classical in
/-- `1` at the rows of `x` to which some row of `y` is more similar than `c`, `0` at the others. -/
def anyAbove (c : EReal) (x y : S8192x1024.Idx → EReal) : S8192.Idx → EReal := fun i =>
  if ∃ m : Fin 8192, c < sim x y (i 0) m then 1 else 0

/-- Its value at a row some row of `y` is more similar to than `c`. -/
theorem anyAbove_of_exists (c : EReal) (x y : S8192x1024.Idx → EReal) (n : Fin 8192)
    (h : ∃ m : Fin 8192, c < sim x y n m) : anyAbove c x y (ix1 n) = 1 := by
  unfold anyAbove; exact if_pos h

/-- Its value at a row no row of `y` is more similar to than `c`. -/
theorem anyAbove_of_not_exists (c : EReal) (x y : S8192x1024.Idx → EReal) (n : Fin 8192)
    (h : ¬∃ m : Fin 8192, c < sim x y n m) : anyAbove c x y (ix1 n) = 0 := by
  unfold anyAbove; exact if_neg h

end Cert.Threshold

end
-- ==== Proof.AnyRow.lean ====
/-
  The reference, read row by row: it computes the indicator of "some similarity of the row exceeds the threshold".

  Its last three operations compare every similarity `sim n m` with the threshold (one bit each), fold the bits of row
  `n` by `or` from `0`, and convert the resulting bit to a float, reading it as a natural number. The bit at `(n, m)` is
  `1` exactly when the threshold lies strictly below `sim n m`; the fold is `1` exactly when some bit of the row is;
  and a one-bit word read as a natural number is `1` or `0`. The similarities are the contraction, over the last axis
  of both, of the two normalised inputs — which this file never opens: they enter only as two arrays.
-/
import proofs.«173119_j46995532153135_1_alg».proof.Proof.Gen.ReferenceIdeal.Read
import proofs.«173119_j46995532153135_1_alg».proof.Proof.Threshold
import Idealize.ShloMosaic.PureOps.Reduce
import Idealize.ShloMosaic.Lib.ValueIdx

noncomputable section

open scoped BigOperators
open Idealize.ShloMosaic Idealize.ShloMosaic.ValueIdx

namespace Cert.ReferenceIdeal.AnyRow

open Cert.ReferenceIdeal Cert.ReferenceIdeal.Gen Cert.ReferenceIdeal.Read

/-- The threshold both programs compare with: the binary value nearest nine tenths. -/
abbrev threshold : EReal := Ideal.ofBits .f32 0x3F666666#32

/-- The shape fact of the fold over the columns, in the form that names the inserted index. -/
theorem reduces_rows : S8192x8192.Reduces [1] S8192 := by decide

/-- Row `n` of the fold reads the comparison bits along `(n, m)`. -/
theorem lift_row (n m : Fin 8192) : reduces_rows.lift (ix1 n) m = ix2 n m :=
  funext fun d => Fin.ext (by match d with | ⟨0, _⟩ => rfl | ⟨1, _⟩ => rfl)

/-- The comparison bit at `(n, m)` is `1` exactly when the threshold lies strictly below the similarity of row `n` of the
    first normalised input and row `m` of the second. -/
theorem bit_apply (x0 x1 : (⟨S8192x1024, .f32⟩ : BufTy).Contents (Elt Ideal)) (n m : Fin 8192) :
    val_main_v12 (F := Ideal) x0 x1 (ix2 n m) = 1#1
      ↔ threshold < Cert.Threshold.sim (val_main_v7 (F := Ideal) x0) (val_main_v9 (F := Ideal) x1) n m := by
  have el : ∀ k : Fin 1024, lidx_main_v10 (ix2 n m) k = ix2 n k := fun k =>
    funext fun d => Fin.ext (by match d with | ⟨0, _⟩ => rfl | ⟨1, _⟩ => rfl)
  have er : ∀ k : Fin 1024, ridx_main_v10 (ix2 n m) k = ix2 m k := fun k =>
    funext fun d => Fin.ext (by match d with | ⟨0, _⟩ => rfl | ⟨1, _⟩ => rfl)
  rw [val_main_v12_apply, val_main_v10_apply, val_main_v11_apply, val_main_cst_1_apply]
  simp only [el, er]
  show Ideal.cmp .ogt (Cert.Threshold.sim (val_main_v7 (F := Ideal) x0) (val_main_v9 (F := Ideal) x1) n m) threshold = 1#1 ↔ _
  unfold Ideal.cmp
  by_cases h : threshold < Cert.Threshold.sim (val_main_v7 (F := Ideal) x0) (val_main_v9 (F := Ideal) x1) n m
  · simp [h]
  · simp [h]

/-- The reference's result is the indicator, row by row, of some similarity exceeding the threshold. -/
theorem result_eq (x0 x1 : (⟨S8192x1024, .f32⟩ : BufTy).Contents (Elt Ideal)) :
    val_main_v14 (F := Ideal) x0 x1
      = Cert.Threshold.anyAbove threshold (val_main_v7 (F := Ideal) x0) (val_main_v9 (F := Ideal) x1) := by
  funext i
  obtain ⟨n, rfl⟩ : ∃ n : Fin 8192, i = ix1 n := ⟨i 0, eq_ix1 i⟩
  rw [val_main_v14_apply]
  have key : val_main_v13 (F := Ideal) x0 x1 (ix1 n) = 1#1 ↔ ∃ m : Fin 8192, threshold < Cert.Threshold.sim (val_main_v7 (F := Ideal) x0) (val_main_v9 (F := Ideal) x1) n m := by
    unfold val_main_v13
    have h1 := Host.reduce_eq_fold_single IntOp.ori (val_main_v12 (F := Ideal) x0 x1) (val_main_c (F := Ideal))
      reducesTo_S8192x8192_S8192_d1 reduces_rows h_S_ (ix1 n)
    have h2 := Cert.Threshold.fold_ori_eq_one (n := 8192) (val_main_v12 (F := Ideal) x0 x1 ∘ reduces_rows.lift (ix1 n))
    refine (Eq.to_iff (congrArg (· = 1#1) h1)).trans (h2.trans ?_)
    refine exists_congr fun m => ?_
    exact (Eq.to_iff (congrArg (fun j => val_main_v12 (F := Ideal) x0 x1 j = 1#1) (lift_row n m))).trans (bit_apply x0 x1 n m)
  generalize val_main_v13 (F := Ideal) x0 x1 (ix1 n) = bit at key ⊢
  by_cases h : ∃ m : Fin 8192, threshold < Cert.Threshold.sim (val_main_v7 (F := Ideal) x0) (val_main_v9 (F := Ideal) x1) n m
  · rw [Cert.Threshold.anyAbove_of_exists _ _ _ n h, key.2 h]
    show ((((1#1 : BitVec 1).toNat : ℝ)) : EReal) = 1
    norm_num
  · rw [Cert.Threshold.anyAbove_of_not_exists _ _ _ n h, Cert.Threshold.bit_eq_zero_of_ne_one _ (fun e => h (key.1 e))]
    show ((((0#1 : BitVec 1).toNat : ℝ)) : EReal) = 0
    norm_num

end Cert.ReferenceIdeal.AnyRow

end
-- ==== Proof.Normalised.lean ====
/-
  Both programs normalise their inputs by the same operations.

  Each divides every row of an input by the row's norm clamped from below: the square root of the row's sum of squares,
  then the larger of that and a small positive constant, broadcast back along the row. The kernel's host part then
  stores the quotient in a narrower float format; the reference keeps it as it is. Over the extended reals a change of
  float format is the identity, so the array the kernel's grid finds for each of its two operands IS the reference's
  normalised input, operation for operation. Nothing about norms, clamps or quotients is used anywhere else: the
  similarities are taken of these two arrays, whatever they hold.
-/
import proofs.«173119_j46995532153135_1_alg».proof.Proof.Gen.KernelIdeal.Frame
import proofs.«173119_j46995532153135_1_alg».proof.Proof.Gen.ReferenceIdeal.Read
import Idealize.ShloMosaic.Lib.StableHlo.Run

noncomputable section

open Idealize.ShloMosaic Idealize.ShloMosaic.TcCoe Idealize.SL.Sem

namespace Cert.KernelIdeal.Normalised

open Cert.KernelIdeal Cert.KernelIdeal.Gen

variable (m : (ℓ : Loc nD τ sig) → Buf (Elt Ideal) ℓ)

/-- The kernel's first operand is the reference's normalised first input. -/
theorem x_eq (c : Dev nD) :
    (V m c main_v5 : FVec Ideal S8192x1024 .bf16)
      = Cert.ReferenceIdeal.Read.val_main_v7 (F := Ideal) (m ((c : Thread nD τ).loc main_arg0)) := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-- The kernel's second operand is the reference's normalised second input. -/
theorem y_eq (c : Dev nD) :
    (V m c main_v11 : FVec Ideal S8192x1024 .bf16)
      = Cert.ReferenceIdeal.Read.val_main_v9 (F := Ideal) (m ((c : Thread nD τ).loc main_arg1)) := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

end Cert.KernelIdeal.Normalised

end
-- ==== Proof.CaseValues.lean ====
/-
  What one grid point leaves behind, case by case.

  The grid is 8 x 8: point `t` works on row tile `t / 8` of the normalised `x` and on row tile `t % 8` of the
  normalised `y`. A column of 1024 running maxima, one per row of the row tile, is carried from point to point.
  With `upd a b s` written for "the entrywise maximum of `s` and of the row maxima of the tile product `a bᵀ`" (the body's
  second stored value) and `ind s` for "the indicator of `s` exceeding the threshold" (its third):

    * at the first column tile (`t % 8 = 0`) the column is first set to `-∞` everywhere (the body's first stored value)
      and then updated, so it ends at `upd a b (-∞)`;
    * at a middle column tile it ends at `upd a b s` of what the point before left, `s`;
    * at the last column tile (`t % 8 = 7`) likewise, and the output block receives `ind` of the UPDATED column.

  Each statement reads the stores the run found back as one value: a store of the whole column covers it, a load of the
  whole column after such a store reads what was stored, and a load of a whole input buffer reads the block it holds.
-/
import proofs.«173119_j46995532153135_1_alg».proof.Proof.Gen.KernelIdeal.Frame
import Idealize.ShloMosaic.Lib.Pipeline.Value
import Idealize.ShloMosaic.Lib.Tactic

noncomputable section

open Idealize.ShloMosaic Idealize.ShloMosaic.TcCoe Idealize.ShloMosaic.Tactic Idealize.SL.Sem

namespace Cert.KernelIdeal.CaseValues

open Cert.KernelIdeal Cert.KernelIdeal.Gen

variable {F : FTy → Type} [FloatOps F]

/-- The offsets of every load and store of the body: the origin. -/
theorem origin : (![0, 0] : Fin 2 → Nat) = fun _ => 0 := funext fun a => by fin_cases a <;> rfl

/-- First column tile: the column of running maxima ends at the update of the all-`-∞` column. -/
theorem column_first (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i) (x0 x1 : Vec F S1024x1024 .bf16) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x1) origin, View.readCov_unit_zero (S := S1024x1) _ origin]
  simp only [View.readAt_eq_ld, harg2.read_unread, harg3.read_unread, View.ld_unit_zero (S := S1024x1024) origin]

/-- Middle column tile: the column ends at the update of what the point before left. -/
theorem column_middle (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i) (x0 x1 : Vec F S1024x1024 .bf16) (xs0 : Vec F S1024x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero origin]
  simp only [View.readAt_eq_ld, harg2.read_unread, harg3.read_unread, harg5.read_unread, View.ld_unit_zero (S := S1024x1024) origin, View.ld_unit_zero (S := S1024x1) origin]

/-- Last column tile: the column ends at the update of what the point before left, -/
theorem column_last (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i) (x0 x1 : Vec F S1024x1024 .bf16) (xs0 : Vec F S1024x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero origin]
  simp only [View.readAt_eq_ld, harg2.read_unread, harg3.read_unread, harg5.read_unread, View.ld_unit_zero (S := S1024x1024) origin, View.ld_unit_zero (S := S1024x1) origin]

/-- and the output block receives the indicator of that updated column exceeding the threshold. -/
theorem block_last (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i) (x0 x1 : Vec F S1024x1024 .bf16) (xs0 : Vec F S1024x1 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero origin]
  simp only [View.readAt_eq_ld, harg2.read_unread, harg3.read_unread, harg5.read_unread, View.readCov_unit_zero (S := S1024x1) _ origin, View.ld_unit_zero (S := S1024x1024) origin, View.ld_unit_zero (S := S1024x1) origin]

end Cert.KernelIdeal.CaseValues

end
-- ==== Proof.LibColumn.lean ====
/-
  A vector laid out as a one-column matrix, read at an index.

  Reshaping an array of `a` entries to `a` rows of one entry each moves nothing: row-major, entry `(i, u)` of the
  column sits at position `i * 1 + u`, and the unit coordinate `u` can only be `0`, so that position is `i`, where
  entry `i` of the vector sits. Stated with both indices built from their coordinates, so that the lemma applies
  to a printed reshape by unification.
-/
import Idealize.ShloMosaic.Lib.ValueLayout

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The same at an arbitrary index `j` of the column: it reads the operand at `j`'s row. -/
theorem shapeCast_a_a1_apply' {a : ℕ} (x : (⟨1, ![a]⟩ : Shape).Idx → α) (h : (⟨1, ![a]⟩ : Shape).ShapeCasts ⟨2, ![a, 1]⟩)
    (j : (⟨2, ![a, 1]⟩ : Shape).Idx) : shapeCast ⟨2, ![a, 1]⟩ x h j = x (ix1 (j 0)) := by
  rw [eq_ix2 j]
  exact shapeCast_a_a1_apply x h (j 0) (j 1)

end Cert.LibColumn

end
-- ==== Proof.RowMax.lean ====
/-
  The body's three stored values read entry by entry, over the extended reals.

  For a row tile `a` and a column tile `b` (each 1024 rows of 1024 entries) the tile product at `(r, q)` is
  `∑ k, a (r, k) * b (q, k)`: the matrix unit contracts the LAST axis of both operands into a zero accumulator. Its row
  maximum is the fold of `max` over `q` started at `-∞`, and the reshape of the 1024 row maxima to a column moves nothing.
  So, at row `r` of the column:

    * the reset value is `⊥` (the pattern of `-∞` denotes the bottom of the extended reals);
    * the update of `s` is `max (s r) (the fold of max over q of the tile product at (r, q))`;
    * the indicator of `s` is `1` if the threshold lies strictly below `s r` and `0` if not: the comparison gives one
      bit, widening it to 32 bits and reading those as a signed integer gives `0` or `1`.
-/
import proofs.«173119_j46995532153135_1_alg».proof.Proof.Gen.KernelIdeal.Skeleton
import proofs.«173119_j46995532153135_1_alg».proof.Proof.Threshold
import proofs.«173119_j46995532153135_1_alg».proof.Proof.LibColumn
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.RowMax

open Cert.KernelIdeal Cert.KernelIdeal.Gen

/-- The left operand's row coordinate is the result's row. -/
theorem lhs_tile_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- The left operand's column coordinate is the contraction index. -/
theorem lhs_tile_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- The right operand's row coordinate is the result's column. -/
theorem rhs_tile_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- The right operand's column coordinate is the contraction index. -/
theorem rhs_tile_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The tile product at `(r, q)`: the sum over the 1024 columns of the products of row `r` of `a` and row `q` of `b`. -/
theorem tile_apply (a b : FVec Ideal S1024x1024 .bf16) (r q : Fin 1024) :
    (matmul dot_S1024x1024_S1024x1024_S1024x1024_1_1_0_0_n_n none a b (constant S1024x1024 .f32 0x00000000#32) : FVec Ideal S1024x1024 .f32) (ix2 r q)
      = ∑ k : Fin 1024, a (ix2 r k) * b (ix2 q k) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 r q) ((contrEquiv1 dot_S1024x1024_S1024x1024_S1024x1024_1_1_0_0_n_n 1024 rfl rfl).symm k) = ix2 r k := funext fun d => Fin.ext (by
    match d with
    | ⟨0, _⟩ => exact lhs_tile_0 _ _
    | ⟨1, _⟩ => exact (lhs_tile_1 _ _).trans hk)
  have er : dot_S1024x1024_S1024x1024_S1024x1024_1_1_0_0_n_n.rhsIdx (ix2 r q) ((contrEquiv1 dot_S1024x1024_S1024x1024_S1024x1024_1_1_0_0_n_n 1024 rfl rfl).symm k) = ix2 q k := funext fun d => Fin.ext (by
    match d with
    | ⟨0, _⟩ => exact rhs_tile_0 _ _
    | ⟨1, _⟩ => exact (rhs_tile_1 _ _).trans hk)
  rw [el, er]

/-- The row maximum of the tile product of `a` and `b` at row `r`. -/
def tileMax (a b : FVec Ideal S1024x1024 .bf16) (r : Fin 1024) : EReal :=
  (Finset.univ : Finset (Fin 1024)).fold max ⊥ fun q => ∑ k : Fin 1024, a (ix2 r k) * b (ix2 q k)

/-- The pattern of `-∞` denotes the bottom of the extended reals. -/
theorem neg_inf : Ideal.ofBits .f32 0xFF800000#32 = ⊥ := by simp [Ideal.ofBits, Ideal.ieee]

/-- The reset value is `⊥` at every entry. -/
theorem reset_apply (j : S1024x1.Idx) : (k0_pay1 (F := Ideal) : FVec Ideal S1024x1 .f32) j = ⊥ := by
  unfold k0_pay1
  rw [shapeCast_self]
  exact neg_inf

/-- Row `r` of the row-wise reduction reads the tile product along `(r, q)`. -/
theorem lift_row (r q : Fin 1024) : reduces_S1024x1024_S1024.lift (ix1 r) q = ix2 r q :=
  funext fun d => Fin.ext (by match d with | ⟨0, _⟩ => rfl | ⟨1, _⟩ => rfl)

/-- The row-wise maximum of a `[1024, 1024]` array, started at the pattern of `-∞`, read at row `r`: the fold of `max`
    from `⊥` over the row's 1024 entries. -/
theorem row_max_apply (v : FVec Ideal S1024x1024 .f32) (hφ : FKind.Formats .f32)
    (hacc : (0xFF800000#32 : BitVec 32) = FKind.maximumf.neutral .f32 hφ) (r : Fin 1024) :
    multiReduction .maximumf [1] S1024 v 0xFF800000#32 reduces_S1024x1024_S1024 hφ hacc (ix1 r)
      = (Finset.univ : Finset (Fin 1024)).fold max ⊥ fun q => v (ix2 r q) := by
  refine (Ideal.multiReduction_maximumf_single v 0xFF800000#32 reduces_S1024x1024_S1024 hφ hacc (ix1 r)).trans ?_
  show (Finset.univ : Finset (Fin 1024)).fold max (Ideal.ofBits .f32 0xFF800000#32) _ = _
  rw [neg_inf]
  refine congrArg (fun f => (Finset.univ : Finset (Fin 1024)).fold max ⊥ f) (funext fun q => ?_)
  exact congrArg v (lift_row r q)

/-- The update of the column `s` at row `r`: the larger of `s` there and the tile product's row maximum. -/
theorem update_apply (a b : FVec Ideal S1024x1024 .bf16) (s : FVec Ideal S1024x1 .f32) (r : Fin 1024) (u : Fin 1) :
    (k0_pay2 (F := Ideal) a b s : FVec Ideal S1024x1 .f32) (ix2 r u) = max (s (ix2 r u)) (tileMax a b r) := by
  unfold k0_pay2
  dsimp only
  rw [shapeCast_self, shapeCast_self (s := S1024x1024), shapeCast_self (s := S1024x1024), maximumf_apply]
  refine congrArg (max (s (ix2 r u))) ?_
  rw [Cert.LibColumn.shapeCast_a_a1_apply]
  refine (row_max_apply _ _ _ r).trans ?_
  unfold tileMax
  refine congrArg (fun f => (Finset.univ : Finset (Fin 1024)).fold max ⊥ f) (funext fun q => ?_)
  exact tile_apply a b r q

/-- The indicator of the column `s` at an entry: `1` if the threshold lies strictly below `s` there, else `0`. -/
theorem indicator_apply (s : FVec Ideal S1024x1 .f32) (j : S1024x1.Idx) :
    (k0_pay3 (F := Ideal) s : FVec Ideal S1024x1 .f32) j = if Ideal.ofBits .f32 0x3F666666#32 < s j then 1 else 0 := by
  unfold k0_pay3
  rw [sitofp_apply, extui_apply, cmpf_apply, broadcast_apply]
  show ((((Ideal.cmp .ogt (s j) (Ideal.ofBits .f32 0x3F666666#32)).setWidth 32).toInt : ℝ) : EReal) = _
  rw [Cert.Threshold.signed_widened_eq_unsigned]
  unfold Ideal.cmp
  by_cases h : Ideal.ofBits .f32 0x3F666666#32 < s j
  · rw [if_pos h]; simp [h]
  · rw [if_neg h]; simp [h]

end Cert.KernelIdeal.RowMax

end
-- ==== Proof.Running.lean ====
/-
  The column of running maxima after each grid point.

  Point `t` of the 8 x 8 grid reads rows `1024 (t / 8) + r` of the normalised `x` (its row tile) and rows
  `1024 (t % 8) + q` of the normalised `y` (its column tile), so the tile product at `(r, q)` is the similarity of those two
  rows. The column carried between points therefore satisfies, after point `n` and at row `r`: an extended real `e`
  lies strictly below the entry exactly when it lies strictly below the similarity of row `1024 (n / 8) + r` of `x` with
  SOME row `mc` of `y` among the column tiles met so far in this row of the grid, `mc / 1024 ≤ n % 8`. That is the
  universal property of a maximum, and it is all the induction needs: the first column tile starts from `⊥`, below
  which nothing lies; every later one takes the maximum with the new tile's row maxima, and `e < max a b ↔ e < a ∨ e < b`.
-/
import proofs.«173119_j46995532153135_1_alg».proof.Proof.Gen.KernelIdeal.Frame
import proofs.«173119_j46995532153135_1_alg».proof.Proof.CaseValues
import proofs.«173119_j46995532153135_1_alg».proof.Proof.RowMax
import proofs.«173119_j46995532153135_1_alg».proof.Proof.Threshold
import Idealize.ShloMosaic.Lib.Pipeline.Value

noncomputable section

open scoped BigOperators
open Idealize.ShloMosaic Idealize.ShloMosaic.TcCoe Idealize.ShloMosaic.ValueIdx Idealize.SL.Sem

namespace Cert.KernelIdeal.Running

open Cert.KernelIdeal Cert.KernelIdeal.Gen

variable (m : (ℓ : Loc nD τ sig) → Buf (Elt Ideal) ℓ)

/-- The normalised `x` and `y` as the kernel finds them, -/
abbrev xarr (c : Dev nD) : FVec Ideal S8192x1024 .bf16 := V m c main_v5
abbrev yarr (c : Dev nD) : FVec Ideal S8192x1024 .bf16 := V m c main_v11
/-- and the row tile of `x` and the column tile of `y` that point `t` works on. -/
abbrev xblk (c : Dev nD) (t : Fin cfg0.N) : FVec Ideal S1024x1024 .bf16 := iblk m c 0 t
abbrev yblk (c : Dev nD) (t : Fin cfg0.N) : FVec Ideal S1024x1024 .bf16 := iblk m c 1 t

theorem lt64 (t : Fin cfg0.N) : t.val < 64 := lt_of_lt_of_eq t.isLt (show cfg0.N = 64 from N_0)

/-- Row `r` of point `t`'s row tile, as a row of the whole array. -/
def tileRow (t : Fin cfg0.N) (r : Fin 1024) : Fin 8192 := ⟨1024 * (t.val / 8) + r.val, by have := lt64 t; omega⟩
/-- Row `q` of point `t`'s column tile, as a row of the whole array. -/
def tileCol (t : Fin cfg0.N) (q : Fin 1024) : Fin 8192 := ⟨1024 * (t.val % 8) + q.val, by omega⟩

/-- Which block of its array each window is on at point `t`: decided once over the 64 points. -/
theorem index_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0)

/-- The row tile at `(r, k)` is the array at `(1024 (t / 8) + r, k)`. -/
theorem xblk_apply (c : Dev nD) (t : Fin cfg0.N) (r k : Fin 1024) :
    xblk m c t (ix2 r k) = xarr m c (ix2 (tileRow t r) k) := by
  unfold xblk iblk
  rw [View.read_apply]
  show V m c main_v5 _ = V m c main_v5 _
  refine congrArg (V m c main_v5) (funext fun a => Fin.ext ?_)
  match a with
  | ⟨0, _⟩ =>
    show win0_0.index t 0 * 1024 + 1 * r.val = 1024 * (t.val / 8) + r.val
    rw [(index_facts t).1]; omega
  | ⟨1, _⟩ =>
    show win0_0.index t 1 * 1024 + 1 * k.val = k.val
    rw [(index_facts t).2.1]; omega

/-- The column tile at `(q, k)` is the array at `(1024 (t % 8) + q, k)`. -/
theorem yblk_apply (c : Dev nD) (t : Fin cfg0.N) (q k : Fin 1024) :
    yblk m c t (ix2 q k) = yarr m c (ix2 (tileCol t q) k) := by
  unfold yblk iblk
  rw [View.read_apply]
  show V m c main_v11 _ = V m c main_v11 _
  refine congrArg (V m c main_v11) (funext fun a => Fin.ext ?_)
  match a with
  | ⟨0, _⟩ =>
    show win0_1.index t 0 * 1024 + 1 * q.val = 1024 * (t.val % 8) + q.val
    rw [(index_facts t).2.2.1]; omega
  | ⟨1, _⟩ =>
    show win0_1.index t 1 * 1024 + 1 * k.val = k.val
    rw [(index_facts t).2.2.2.1]; omega

/-- So the tile product at `(r, q)` is the similarity of those two rows of the arrays. -/
theorem tile_sim (c : Dev nD) (t : Fin cfg0.N) (r q : Fin 1024) :
    ∑ k : Fin 1024, xblk m c t (ix2 r k) * yblk m c t (ix2 q k)
      = Cert.Threshold.sim (xarr m c) (yarr m c) (tileRow t r) (tileCol t q) := by
  unfold Cert.Threshold.sim
  exact Finset.sum_congr rfl fun k _ => by rw [xblk_apply, yblk_apply]

/-- ONE POINT. Below the updated column at row `r` lies what lay below the column before, and what lies below the
    similarity of the row with some row of `y` in THIS point's column tile. -/
theorem lt_update_iff (c : Dev nD) (t : Fin cfg0.N) (s : FVec Ideal S1024x1 .f32) (r : Fin 1024) (u : Fin 1) (e : EReal) :
    e < (k0_pay2 (F := Ideal) (xblk m c t) (yblk m c t) s : FVec Ideal S1024x1 .f32) (ix2 r u)
      ↔ e < s (ix2 r u) ∨ ∃ mc : Fin 8192, mc.val / 1024 = t.val % 8 ∧ e < Cert.Threshold.sim (xarr m c) (yarr m c) (tileRow t r) mc := by
  rw [Cert.KernelIdeal.RowMax.update_apply, lt_max_iff]
  refine or_congr Iff.rfl ?_
  unfold Cert.KernelIdeal.RowMax.tileMax
  rw [Cert.Threshold.lt_fold_max_bot]
  constructor
  · rintro ⟨q, hq⟩
    refine ⟨tileCol t q, ?_, ?_⟩
    · show (1024 * (t.val % 8) + q.val) / 1024 = t.val % 8
      have := q.isLt; omega
    · rw [← tile_sim]; exact hq
  · rintro ⟨mc, hm, he⟩
    refine ⟨⟨mc.val % 1024, Nat.mod_lt _ (by norm_num)⟩, ?_⟩
    rw [tile_sim]
    have : tileCol t ⟨mc.val % 1024, Nat.mod_lt _ (by norm_num)⟩ = mc := Fin.ext (by
      show 1024 * (t.val % 8) + mc.val % 1024 = mc.val
      omega)
    rw [this]; exact he

/-- The column after point `t`, at its literal type. -/
abbrev colAt (c : Dev nD) (t : Fin cfg0.N) : FVec Ideal S1024x1 .f32 := (outsAt0 m c t.val t.isLt).2

/-- At a first column tile the column is the update of the all-`⊥` column. -/
theorem col_first (c : Dev nD) (t : Fin cfg0.N) (h0 : t.val % 8 = 0) :
    colAt m c t = k0_pay2 (F := Ideal) (xblk m c t) (yblk m c t) (k0_pay1 (F := Ideal)) := by
  have h1 : ¬t.val % 8 = 7 := by omega
  unfold colAt
  rw [outsAt0_A m c t h0 h1]
  dsimp only
  exact Cert.KernelIdeal.CaseValues.column_first (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- At every other column tile it is the update of what the point before left. -/
theorem col_later (c : Dev nD) (t : Fin cfg0.N) (h0 : ¬t.val % 8 = 0) :
    colAt m c t = k0_pay2 (F := Ideal) (xblk m c t) (yblk m c t) (outsAt0 m c (t.val - 1) (Nat.lt_of_le_of_lt (Nat.sub_le _ _) t.isLt)).2 := by
  unfold colAt
  by_cases h1 : t.val % 8 = 7
  · rw [outsAt0_C m c t h0 h1]
    dsimp only
    exact Cert.KernelIdeal.CaseValues.column_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2
  · rw [outsAt0_B m c t h0 h1]
    dsimp only
    exact Cert.KernelIdeal.CaseValues.column_middle (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

/-- THE INVARIANT. After point `n`, at row `r`: `e` lies below the column's entry exactly when it lies below the similarity of row
    `1024 (n / 8) + r` of `x` with some row of `y` in a column tile met so far in this row of the grid. -/
theorem column_inv (c : Dev nD) : ∀ (n : ℕ) (h : n < cfg0.N) (r : Fin 1024) (u : Fin 1) (e : EReal),
    e < colAt m c ⟨n, h⟩ (ix2 r u)
      ↔ ∃ mc : Fin 8192, mc.val / 1024 ≤ n % 8 ∧ e < Cert.Threshold.sim (xarr m c) (yarr m c) (tileRow ⟨n, h⟩ r) mc := by
  have first : ∀ (t : Fin cfg0.N), t.val % 8 = 0 → ∀ (r : Fin 1024) (u : Fin 1) (e : EReal),
      e < colAt m c t (ix2 r u) ↔ ∃ mc : Fin 8192, mc.val / 1024 ≤ t.val % 8 ∧ e < Cert.Threshold.sim (xarr m c) (yarr m c) (tileRow t r) mc := by
    intro t h0 r u e
    rw [col_first m c t h0]
    refine (lt_update_iff m c t _ r u e).trans ?_
    rw [Cert.KernelIdeal.RowMax.reset_apply]
    constructor
    · rintro (hb | ⟨mc, hm, he⟩)
      · exact absurd hb not_lt_bot
      · exact ⟨mc, by omega, he⟩
    · rintro ⟨mc, hm, he⟩
      exact Or.inr ⟨mc, by omega, he⟩
  intro n
  induction n with
  | zero => intro h r u e; exact first ⟨0, h⟩ (Nat.zero_mod 8) r u e
  | succ n ih =>
    intro h r u e
    by_cases h0 : (n + 1) % 8 = 0
    · exact first ⟨n + 1, h⟩ h0 r u e
    · rw [col_later m c ⟨n + 1, h⟩ h0]
      refine (lt_update_iff m c ⟨n + 1, h⟩ _ r u e).trans ?_
      refine (or_congr (ih (Nat.lt_of_succ_lt h) r u e) Iff.rfl).trans ?_
      have hrow : tileRow ⟨n, Nat.lt_of_succ_lt h⟩ r = tileRow ⟨n + 1, h⟩ r := Fin.ext (by
        show 1024 * (n / 8) + r.val = 1024 * ((n + 1) / 8) + r.val
        omega)
      rw [hrow]
      constructor
      · rintro (⟨mc, hm, he⟩ | ⟨mc, hm, he⟩)
        · exact ⟨mc, by omega, he⟩
        · exact ⟨mc, by have : (⟨n + 1, h⟩ : Fin cfg0.N).val = n + 1 := rfl; omega, he⟩
      · rintro ⟨mc, hm, he⟩
        by_cases hlt : mc.val / 1024 ≤ n % 8
        · exact Or.inl ⟨mc, hlt, he⟩
        · exact Or.inr ⟨mc, by have : (⟨n + 1, h⟩ : Fin cfg0.N).val = n + 1 := rfl; omega, he⟩

/-- At a last column tile the block written back is the indicator of the column just updated. -/
theorem block_value (c : Dev nD) (t : Fin cfg0.N) (h1 : t.val % 8 = 7) :
    ((outsAt0 m c t.val t.isLt).1 : FVec Ideal S1024x1 .f32) = k0_pay3 (F := Ideal) (colAt m c t) := by
  have h0 : ¬t.val % 8 = 0 := by omega
  unfold colAt
  rw [outsAt0_C m c t h0 h1]
  dsimp only
  rw [Cert.KernelIdeal.CaseValues.block_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2,
    Cert.KernelIdeal.CaseValues.column_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2]

/-- The threshold both programs compare with: the binary value nearest nine tenths. -/
abbrev threshold : EReal := Ideal.ofBits .f32 0x3F666666#32

/-- So that block, at row `r`, is `1` if some row of `y` is more similar than the threshold to row `1024 (t / 8) + r` of `x`,
    and `0` if none is: by then every column tile has been met. -/
theorem block_apply (c : Dev nD) (t : Fin cfg0.N) (h1 : t.val % 8 = 7) (r : Fin 1024) (u : Fin 1) :
    ((outsAt0 m c t.val t.isLt).1 : FVec Ideal S1024x1 .f32) (ix2 r u)
      = Cert.Threshold.anyAbove threshold (xarr m c) (yarr m c) (ix1 (tileRow t r)) := by
  rw [block_value m c t h1, Cert.KernelIdeal.RowMax.indicator_apply]
  have key : threshold < colAt m c t (ix2 r u) ↔ ∃ mc : Fin 8192, threshold < Cert.Threshold.sim (xarr m c) (yarr m c) (tileRow t r) mc := by
    refine (column_inv m c t.val t.isLt r u threshold).trans ?_
    constructor
    · rintro ⟨mc, _, he⟩; exact ⟨mc, he⟩
    · rintro ⟨mc, he⟩; exact ⟨mc, by have := mc.isLt; omega, he⟩
  by_cases h : ∃ mc : Fin 8192, threshold < Cert.Threshold.sim (xarr m c) (yarr m c) (tileRow t r) mc
  · rw [if_pos (key.2 h), Cert.Threshold.anyAbove_of_exists _ _ _ _ h]
  · rw [if_neg (fun hh => h (key.1 hh)), Cert.Threshold.anyAbove_of_not_exists _ _ _ _ h]

end Cert.KernelIdeal.Running

end
-- ==== Proof.LibUncolumn.lean ====
/-
  A one-column matrix laid out as a vector, read at an index.

  Reshaping `a` rows of one entry each to an array of `a` entries moves nothing: row-major, entry `(i, 0)` of the
  column sits at position `i * 1 + 0 = i`, where entry `i` of the vector sits. Stated with both indices built from
  their coordinates, so that the lemma applies to a printed reshape by unification.
-/
import Idealize.ShloMosaic.Lib.ValueLayout

noncomputable section

namespace Cert.LibUncolumn

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.LibUncolumn

end
-- ==== Proof.Result.lean ====
/-
  What the kernel's run leaves in its result.

  Only the last column tile of each row of the grid writes its block back (`t % 8 = 7`), and by then the column of
  running maxima has met every column tile: the block written at point `t` holds, at row `r`, the indicator that some
  row of the normalised `y` is more similar than the threshold to row `1024 (t / 8) + r` of the normalised `x`. Those
  eight blocks tile the output column of 8192 entries (row `i` is covered by point `8 (i / 1024) + 7`), so the column
  ends holding that indicator at every row; the reshape after the grid lays the column out as a vector of 8192
  entries without moving anything.
-/
import proofs.«173119_j46995532153135_1_alg».proof.Proof.Gen.KernelIdeal.Frame
import proofs.«173119_j46995532153135_1_alg».proof.Proof.Running
import proofs.«173119_j46995532153135_1_alg».proof.Proof.Threshold
import proofs.«173119_j46995532153135_1_alg».proof.Proof.LibUncolumn
import Idealize.ShloMosaic.Lib.Pipeline.Value
import Idealize.ShloMosaic.Lib.StableHlo.Run

noncomputable section

open scoped BigOperators
open Idealize.ShloMosaic Idealize.ShloMosaic.TcCoe Idealize.ShloMosaic.ValueIdx Idealize.SL.Sem
open Idealize.ShloMosaic.Pipeline (Dat)

namespace Cert.KernelIdeal.Result

open Cert.KernelIdeal Cert.KernelIdeal.Gen Cert.KernelIdeal.Running

variable (m : (ℓ : Loc nD τ sig) → Buf (Elt Ideal) ℓ) (ρ : Dev nD → PrngReg)

/-- The indicator at row `n`. -/
def rowVal (c : Dev nD) (n : Fin 8192) : EReal := Cert.Threshold.anyAbove threshold (xarr m c) (yarr m c) (ix1 n)

/-- The kernel's output array, one column of 8192 entries: the indicator at each row. -/
def column (c : Dev nD) : FVec Ideal S8192x1 .f32 := fun j => rowVal m c (j 0)

/-- Reading any array through point `t`'s output block: the array at the block's embedded index. -/
theorem read_blk_apply (c : Dev nD) (t : Fin cfg0.N) (j : ((cfg0.win 2).xblock (grid0.coords t)).Idx) (G : FVec Ideal S8192x1 .f32) :
    ((cfg0.win 2).blk t).view.read (Elt Ideal) G j = G (((cfg0.win 2).blk t).view.emb j) := rfl

/-- What a write-back writes of a block's contents `X`: `X` itself, entry by entry (the window is never cut short). -/
theorem cut_apply (t : Fin cfg0.N) (j : ((cfg0.win 2).xblock (grid0.coords t)).Idx) (X : FVec Ideal S1024x1 .f32) :
    (cfg0.win 2).cut (grid0.coords t) X j = X ((cfg0.win 2).xinj (grid0.coords t) j) := rfl

/-- WHAT A WRITE-BACK WRITES: at a last column tile, the block of the indicator column that the point's row tile covers. -/
theorem flushed_eq (c : Dev nD) (t : Fin cfg0.N) (hf : (cfg0.win 2).flush t = true) :
    (dats m 0 c).flushed 2 t = ((cfg0.win 2).blk t).view.read (Elt Ideal) (column m c) := by
  have h1 : t.val % 8 = 7 := (flush0_2 t).mp hf
  show (cfg0.win 2).cut (grid0.coords t) ((dats m 0 c).after 2 t) = _
  rw [after0_2]
  funext j
  have hr : (j 0).val < 1024 := Nat.lt_of_lt_of_le (j 0).isLt ((cfg0.win 2).xsize_le (grid0.coords t) 0)
  have hu : (j 1).val < 1 := Nat.lt_of_lt_of_le (j 1).isLt ((cfg0.win 2).xsize_le (grid0.coords t) 1)
  have hx : (cfg0.win 2).xinj (grid0.coords t) j = ix2 (⟨(j 0).val, hr⟩ : Fin 1024) (⟨(j 1).val, hu⟩ : Fin 1) :=
    funext fun a => Fin.ext (by match a with | ⟨0, _⟩ => rfl | ⟨1, _⟩ => rfl)
  have he : (((cfg0.win 2).blk t).view.emb j) 0 = tileRow t ⟨(j 0).val, hr⟩ := Fin.ext (by
    show win0_2.index t 0 * 1024 + 1 * (j 0).val = 1024 * (t.val / 8) + (j 0).val
    rw [(index_facts t).2.2.2.2.1]; omega)
  have hR : column m c (((cfg0.win 2).blk t).view.emb j) = rowVal m c ((((cfg0.win 2).blk t).view.emb j) 0) := rfl
  refine (cut_apply t j _).trans ?_
  refine Eq.trans ?_ (read_blk_apply c t j (column m c)).symm
  rw [hx, block_apply m c t h1, hR, he]
  unfold rowVal
  rfl

/-- An index of the output array is in point `t`'s block iff each coordinate is in the block's range on its axis. -/
theorem mem_blk (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v12).slice (win0_2.rect t)).set ↔ _
  rw [View.set_slice_whole, Rect.mem_set_unit]
  exact Iff.rfl

/-- The eight written-back blocks tile the output column, so it ends holding the indicator at every row. -/
theorem final (c : Dev nD) : (dats m 0 c).arrAt 2 cfg0.N = column m c :=
  (dats m 0 c).arrAt_eq_of_cover 2 (column m c) (flushed_eq m c) fun i => by
    have hi0 : (i 0).val < 8192 := (i 0).isLt
    have hi1 : (i 1).val < 1 := (i 1).isLt
    have hN : cfg0.N = 64 := N_0
    have hlt : 8 * ((i 0).val / 1024) + 7 < cfg0.N := by omega
    refine ⟨⟨8 * ((i 0).val / 1024) + 7, hlt⟩, (flush0_2 _).mpr (by show (8 * ((i 0).val / 1024) + 7) % 8 = 7; omega), ?_⟩
    rw [mem_blk]
    obtain ⟨_, _, _, _, e4, e5⟩ := index_facts ⟨8 * ((i 0).val / 1024) + 7, hlt⟩
    intro a
    match a with
    | ⟨0, _⟩ =>
      show win0_2.index ⟨8 * ((i 0).val / 1024) + 7, hlt⟩ 0 * 1024 ≤ (i 0).val ∧ (i 0).val < win0_2.index ⟨8 * ((i 0).val / 1024) + 7, hlt⟩ 0 * 1024 + 1024
      rw [e4]
      show (8 * ((i 0).val / 1024) + 7) / 8 * 1024 ≤ (i 0).val ∧ (i 0).val < (8 * ((i 0).val / 1024) + 7) / 8 * 1024 + 1024
      omega
    | ⟨1, _⟩ =>
      show win0_2.index ⟨8 * ((i 0).val / 1024) + 7, hlt⟩ 1 * 1 ≤ (i 1).val ∧ (i 1).val < win0_2.index ⟨8 * ((i 0).val / 1024) + 7, hlt⟩ 1 * 1 + 1
      rw [e5]; omega

/-- The reshape of the column to a vector reads entry `n` at `(n, 0)`: the result is the indicator, row by row. -/
theorem tail_eq (c : Dev nD) :
    Pipeline.afterTail₀ cfgs (dats m) 0 (V0 m) [hostOps1] c main_v13 = (Cert.Threshold.anyAbove threshold (xarr m c) (yarr m c) : FVec Ideal S8192 .f32) := by
  unfold Pipeline.afterTail₀
  show StableHlo.after hostOps1 _ (Proc.devRef .tc main_v13) = _
  after_results
  have hw : Pipeline.withArrays (cfgs 0).spec c (V0 m c) (fun w => (dats m 0 c).arrAt w (cfgs 0).N) (Proc.devRef .tc main_v12) = column m c :=
    (Pipeline.withArrays_arr spec0 launch0.win.arr_inj c _ _ 2).trans (final m c)
  funext i
  obtain ⟨n, rfl⟩ : ∃ n : Fin 8192, i = ix1 n := ⟨i 0, eq_ix1 i⟩
  show shapeCast S8192 (Pipeline.withArrays (cfgs 0).spec c (V0 m c) (fun w => (dats m 0 c).arrAt w (cfgs 0).N) (Proc.devRef .tc main_v12)) shapeCasts_S8192x1_S8192 (ix1 n) = _
  rw [hw]
  exact Cert.LibUncolumn.shapeCast_a1_a_apply (a := 8192) (column m c) shapeCasts_S8192x1_S8192 n

/-- The run, read: the result holds the indicator at every row, and the two arguments are as they were. -/
theorem run : θ_run defs (onTc (τ := τ) (main (F := Ideal))) ⟨m, fun _ => 0, ρ⟩ fun r => ∀ c : Dev nD,
      r.2.mem ((c.tc : Thread nD τ).loc main_v13) = (Cert.Threshold.anyAbove threshold (xarr m c) (yarr m c) : FVec Ideal S8192 .f32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v13 (Pipeline.mem_restRefs_of main_v13 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result

end
-- ==== Proof.lean ====
/-
  The certificate: a kernel that thresholds the row maxima of a similarity matrix agrees, over the extended reals, with
  a reference that asks whether any similarity of the row exceeds the threshold.

  Both programs divide each row of their two inputs by its norm clamped from below, by the same operations; over the
  extended reals the kernel's change of float format is the identity, so both take similarities of the SAME two arrays
  (Proof/Normalised.lean). The reference forms all 8192 x 8192 similarities, compares each with the threshold, and
  folds the bits of a row by `or` (Proof/AnyRow.lean). The kernel walks an 8 x 8 grid of 1024 x 1024 tiles, carrying
  along each row of the grid a column of running maxima started at `-∞`, and after the last tile of the row writes the
  indicator of that column exceeding the threshold (Proof/CaseValues.lean, Proof/RowMax.lean, Proof/Running.lean,
  Proof/Result.lean). The two agree because a threshold lies strictly below the maximum of a finite family exactly when
  it lies strictly below some member (Proof/Threshold.lean): a fact of linear orders that asks nothing of the members,
  so the precondition is never opened. The frames are the generated ones; the idealization rewrote nothing.
-/
import proofs.«173119_j46995532153135_1_alg».proof.Defs
import proofs.«173119_j46995532153135_1_alg».proof.Proof.Gen.Kernel
import proofs.«173119_j46995532153135_1_alg».proof.Proof.Gen.Kernel.Skeleton
import proofs.«173119_j46995532153135_1_alg».proof.Proof.Gen.Kernel.Launch
import proofs.«173119_j46995532153135_1_alg».proof.Proof.Gen.Kernel.Points
import proofs.«173119_j46995532153135_1_alg».proof.Proof.Gen.Kernel.Frame
import proofs.«173119_j46995532153135_1_alg».proof.Proof.Gen.KernelIdeal
import proofs.«173119_j46995532153135_1_alg».proof.Proof.Gen.KernelIdeal.Skeleton
import proofs.«173119_j46995532153135_1_alg».proof.Proof.Gen.KernelIdeal.Launch
import proofs.«173119_j46995532153135_1_alg».proof.Proof.Gen.KernelIdeal.Points
import proofs.«173119_j46995532153135_1_alg».proof.Proof.Gen.KernelIdeal.Frame
import proofs.«173119_j46995532153135_1_alg».proof.Proof.Gen.ReferenceIdeal
import proofs.«173119_j46995532153135_1_alg».proof.Proof.Gen.Pre_finite_inputs
import proofs.«173119_j46995532153135_1_alg».proof.Proof.Gen.ReferenceIdeal.Run
import proofs.«173119_j46995532153135_1_alg».proof.Proof.Gen.ReferenceIdeal.Read
import proofs.«173119_j46995532153135_1_alg».proof.Proof.Threshold
import proofs.«173119_j46995532153135_1_alg».proof.Proof.AnyRow
import proofs.«173119_j46995532153135_1_alg».proof.Proof.Normalised
import proofs.«173119_j46995532153135_1_alg».proof.Proof.Running
import proofs.«173119_j46995532153135_1_alg».proof.Proof.Result
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of host operations: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the two inputs, both programs end with the indicator, row by row, of some row of the
    normalised second input being more similar than the threshold to that row of the normalised first. -/
theorem algebraic : Cert.algebraic_KernelIdeal_ReferenceIdeal := by
  intro m ρ m' ρ' _ hagree
  refine ⟨fun c => Cert.Threshold.anyAbove Cert.KernelIdeal.Running.threshold
    (Cert.KernelIdeal.Running.xarr m c) (Cert.KernelIdeal.Running.yarr m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v14_eq _ _).trans ?_
  refine (Cert.ReferenceIdeal.AnyRow.result_eq _ _).trans ?_
  rw [(hagree c).1, (hagree c).2]
  exact congrArg₂ (Cert.Threshold.anyAbove Cert.KernelIdeal.Running.threshold)
    (Cert.KernelIdeal.Normalised.x_eq m c).symm (Cert.KernelIdeal.Normalised.y_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
